-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x16 : Shape := ⟨2, ![4096, 16]⟩
abbrev S272x1024 : Shape := ⟨2, ![272, 1024]⟩
abbrev S1024 : Shape := ⟨1, ![1024]⟩
abbrev S1024x256 : Shape := ⟨2, ![1024, 256]⟩
abbrev S256 : Shape := ⟨1, ![256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x16 : S_.BroadcastsInDim S4096x16 (![] : Fin 0 → Fin S4096x16.rank)
  reducesTo_S4096x16_S_d0_1 : S4096x16.ReducesTo [0, 1] S_
  bcast_S_S272x1024 : S_.BroadcastsInDim S272x1024 (![] : Fin 0 → Fin S272x1024.rank)
  reducesTo_S272x1024_S_d0_1 : S272x1024.ReducesTo [0, 1] S_
  bcast_S_S1024 : S_.BroadcastsInDim S1024 (![] : Fin 0 → Fin S1024.rank)
  reducesTo_S1024_S_d0 : S1024.ReducesTo [0] S_
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S1024x256 .f32) (main_arg5 : FVec F S256 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x256 .f32 := Host.absf main_arg4
  let main_cst_6 : FVec F S_ .f32 := constant S_ .f32 0x7F800000#32
  let main_v20 : FVec F S1024x256 .f32 := broadcastInDim S1024x256 ![] bcast_S_S1024x256 main_cst_6
  let main_v21 : IVec S1024x256 1 := cmpf .olt main_v19 main_v20
  let main_c_7 : IVec S_ 1 := constantI S_ 1 1#1
  let main_v22 : IVec S_ 1 := (fun x v => Host.reduce IntOp.andi x v reducesTo_S1024x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S4096x256 .f32) (main_arg1 : FVec F S4096x16 .f32) (main_arg2 : FVec F S272x1024 .f32) (main_arg3 : FVec F S1024 .f32) (main_arg4 : FVec F S1024x256 .f32) (main_arg5 : FVec F S256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x16 .f32 := Host.absf main_arg1
  let main_cst_0 : FVec F S_ .f32 := constant S_ .f32 0x7F800000#32
  let main_v5 : FVec F S4096x16 .f32 := broadcastInDim S4096x16 ![] bcast_S_S4096x16 main_cst_0
  let main_v6 : IVec S4096x16 1 := cmpf .olt main_v4 main_v5
  let main_c_1 : IVec S_ 1 := constantI S_ 1 1#1
  let main_v7 : IVec S_ 1 := (fun x v => Host.reduce IntOp.andi x v reducesTo_S4096x16_S_d0_1 h_S_) main_v6 main_c_1
  let main_v8 : IVec S_ 1 := andi main_v3 main_v7
  let main_v9 : FVec F S272x1024 .f32 := Host.absf main_arg2
  let main_cst_2 : FVec F S_ .f32 := constant S_ .f32 0x7F800000#32
  let main_v10 : FVec F S272x1024 .f32 := broadcastInDim S272x1024 ![] bcast_S_S272x1024 main_cst_2
  let main_v11 : IVec S272x1024 1 := cmpf .olt main_v9 main_v10
  let main_c_3 : IVec S_ 1 := constantI S_ 1 1#1
  let main_v12 : IVec S_ 1 := (fun x v => Host.reduce IntOp.andi x v reducesTo_S272x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Kernel.lean ====
abbrev S4096x256 : Shape := ⟨2, ![4096, 256]⟩
abbrev S4096x16 : Shape := ⟨2, ![4096, 16]⟩
abbrev S272x1024 : Shape := ⟨2, ![272, 1024]⟩
abbrev S1024 : Shape := ⟨1, ![1024]⟩
abbrev S1024x256 : Shape := ⟨2, ![1024, 256]⟩
abbrev S256 : Shape := ⟨1, ![256]⟩
abbrev S1x1024 : Shape := ⟨2, ![1, 1024]⟩
abbrev S1x256 : Shape := ⟨2, ![1, 256]⟩
abbrev S2048x256 : Shape := ⟨2, ![2048, 256]⟩
abbrev S2048x16 : Shape := ⟨2, ![2048, 16]⟩
abbrev S2048x272 : Shape := ⟨2, ![2048, 272]⟩
abbrev S2048x1024 : Shape := ⟨2, ![2048, 1024]⟩

abbrev nBuf : Space → Nat
  | .hbm => 11
  | .vmem => 10
  | .smem => 0
  | _ => 0

abbrev bufTy : (tb : Table) → Fin (tcTables nBuf tb) → BufTy
  | .hbm, ⟨0, _⟩ => ⟨S4096x256, .f32⟩
  | .hbm, ⟨1, _⟩ => ⟨S4096x16, .f32⟩
  | .hbm, ⟨2, _⟩ => ⟨S272x1024, .f32⟩
  | .hbm, ⟨3, _⟩ => ⟨S1024, .f32⟩
  | .hbm, ⟨4, _⟩ => ⟨S1024x256, .f32⟩
  | .hbm, ⟨5, _⟩ => ⟨S256, .f32⟩
  | .hbm, ⟨6, _⟩ => ⟨S1x1024, .f32⟩
  | .hbm, ⟨7, _⟩ => ⟨S1x256, .f32⟩
  | .hbm, ⟨8, _⟩ => ⟨S272x1024, .bf16⟩
  | .hbm, ⟨9, _⟩ => ⟨S1024x256, .bf16⟩
  | .hbm, ⟨10, _⟩ => ⟨S4096x256, .f32⟩
  | .local _ .vmem, ⟨0, _⟩ => ⟨S2048x256, .f32⟩
  | .local _ .vmem, ⟨1, _⟩ => ⟨S2048x256, .f32⟩
  | .local _ .vmem, ⟨2, _⟩ => ⟨S2048x16, .f32⟩
  | .local _ .vmem, ⟨3, _⟩ => ⟨S2048x16, .f32⟩
  | .local _ .vmem, ⟨4, _⟩ => ⟨S272x1024, .bf16⟩
  | .local _ .vmem, ⟨5, _⟩ => ⟨S1x1024, .f32⟩
  | .local _ .vmem, ⟨6, _⟩ => ⟨S1024x256, .bf16⟩
  | .local _ .vmem, ⟨7, _⟩ => ⟨S1x256, .f32⟩
  | .local _ .vmem, ⟨8, _⟩ => ⟨S2048x256, .f32⟩
  | .local _ .vmem, ⟨9, _⟩ => ⟨S2048x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S272x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S1024_S1x1024 : S1024.ShapeCasts S1x1024
  shapeCasts_S256_S1x256 : S256.ShapeCasts S1x256
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  inb_S2048x16_S2048x16_0_0 : ∀ a, (![0, 0] : Fin 2 → Nat) a + S2048x16.size a ≤ S2048x16.size a
  h_S2048x16 : 0 < S2048x16.numel
  concatenates_S2048x256_S2048x16_S2048x272_d1 : Shape.Concatenates [S2048x256, S2048x16] S2048x272 1
  inb_S272x1024_S272x1024_0_0 : ∀ a, (![0, 0] : Fin 2 → Nat) a + S272x1024.size a ≤ S272x1024.size a
  h_S272x1024 : 0 < S272x1024.numel
  shapeCasts_S272x1024_S272x1024 : S272x1024.ShapeCasts S272x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  dot_S2048x272_S272x1024_S2048x1024_1_0_0_1_n_n_wf : DotDims.WF S2048x272 S272x1024 S2048x1024 [1] [0] [0] [1] [] []
  dot_S2048x1024_S1024x256_S2048x256_1_0_0_1_n_n_wf : DotDims.WF S2048x1024 S1024x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S4096x256.size a
  hwx0_0 : ∀ i : grid0.Coords, EltTy.bits .f32 = 32 ∨ (Rect.block (s := S4096x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x16.size a ≤ S4096x16.size a
  hwx0_1 : ∀ i : grid0.Coords, EltTy.bits .f32 = 32 ∨ (Rect.block (s := S4096x16) S2048x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S272x1024.size a ≤ S272x1024.size a
  hwx0_2 : ∀ i : grid0.Coords, EltTy.bits .bf16 = 32 ∨ (Rect.block (s := S272x1024) S272x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S1024x256.size a
  hwx0_4 : ∀ i : grid0.Coords, EltTy.bits .bf16 = 32 ∨ (Rect.block (s := S1024x256) S1024x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x256.size a ≤ S4096x256.size a
  hwx0_6 : ∀ i : grid0.Coords, EltTy.bits .f32 = 32 ∨ (Rect.block (s := S4096x256) S2048x256.size (cc0_transform_6 i) (hinb0_6 i)).WholeWords (EltTy.packing .f32)

variable [Facts₀]

def dot_S2048x272_S272x1024_S2048x1024_1_0_0_1_n_n : DotDims S2048x272 S272x1024 S2048x1024 where
  lhsContracting := [1]
  rhsContracting := [0]
  lhsNonContracting := [0]
  rhsNonContracting := [1]
  lhsBatch := []
  rhsBatch := []
  wf := dot_S2048x272_S272x1024_S2048x1024_1_0_0_1_n_n_wf
def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S272x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S2048x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x256 : Shape := ⟨2, ![4096, 256]⟩
abbrev S4096x16 : Shape := ⟨2, ![4096, 16]⟩
abbrev S272x1024 : Shape := ⟨2, ![272, 1024]⟩
abbrev S1024 : Shape := ⟨1, ![1024]⟩
abbrev S1024x256 : Shape := ⟨2, ![1024, 256]⟩
abbrev S256 : Shape := ⟨1, ![256]⟩
abbrev S4096x272 : Shape := ⟨2, ![4096, 272]⟩
abbrev S4096x1024 : Shape := ⟨2, ![4096, 1024]⟩
abbrev S1x1024 : Shape := ⟨2, ![1, 1024]⟩
abbrev S_ : Shape := ⟨0, ![]⟩
abbrev S1x256 : Shape := ⟨2, ![1, 256]⟩

abbrev nBuf : Space → Nat
  | .hbm => 32
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x16, .f32⟩
  | .hbm, ⟨2, _⟩ => ⟨S272x1024, .f32⟩
  | .hbm, ⟨3, _⟩ => ⟨S1024, .f32⟩
  | .hbm, ⟨4, _⟩ => ⟨S1024x256, .f32⟩
  | .hbm, ⟨5, _⟩ => ⟨S256, .f32⟩
  | .hbm, ⟨6, _⟩ => ⟨S4096x272, .f32⟩
  | .hbm, ⟨7, _⟩ => ⟨S4096x1024, .f32⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x256, .f32⟩
  | .hbm, ⟨15, _⟩ => ⟨S1x256, .f32⟩
  | .hbm, ⟨16, _⟩ => ⟨S4096x256, .f32⟩
  | .hbm, ⟨17, _⟩ => ⟨S4096x256, .f32⟩
  | .hbm, ⟨18, _⟩ => ⟨S_, .f32⟩
  | .hbm, ⟨19, _⟩ => ⟨S4096x256, .f32⟩
  | .hbm, ⟨20, _⟩ => ⟨S4096x256, .f32⟩
  | .hbm, ⟨21, _⟩ => ⟨S4096x256, .f32⟩
  | .hbm, ⟨22, _⟩ => ⟨S4096x256, .f32⟩
  | .hbm, ⟨23, _⟩ => ⟨S4096x256, .i1⟩
  | .hbm, ⟨24, _⟩ => ⟨S4096x256, .f32⟩
  | .hbm, ⟨25, _⟩ => ⟨S4096x256, .f32⟩
  | .hbm, ⟨26, _⟩ => ⟨S4096x256, .f32⟩
  | .hbm, ⟨27, _⟩ => ⟨S4096x256, .f32⟩
  | .hbm, ⟨28, _⟩ => ⟨S4096x256, .f32⟩
  | .hbm, ⟨29, _⟩ => ⟨S4096x256, .f32⟩
  | .hbm, ⟨30, _⟩ => ⟨S4096x256, .f32⟩
  | .hbm, ⟨31, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_call1_cst : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_call1_v5 : Ref sig .tc := ⟨.hbm, 24, rfl⟩
abbrev main_call1_v6 : Ref sig .tc := ⟨.hbm, 25, rfl⟩
abbrev main_call1_v7 : Ref sig .tc := ⟨.hbm, 26, rfl⟩
abbrev main_call1_v8 : Ref sig .tc := ⟨.hbm, 27, rfl⟩
abbrev main_call1_v9 : Ref sig .tc := ⟨.hbm, 28, rfl⟩
abbrev main_call1_v10 : Ref sig .tc := ⟨.hbm, 29, rfl⟩
abbrev main_call1_v11 : Ref sig .tc := ⟨.hbm, 30, rfl⟩
abbrev main_v10 : Ref sig .tc := ⟨.hbm, 31, rfl⟩

abbrev nD : Nat := 1
abbrev τ : Topo := Topo.v7x

variable {F : FTy → Type} [FloatOps F]

class Facts₀ : Prop where
  concatenates_S4096x256_S4096x16_S4096x272_d1 : Shape.Concatenates [S4096x256, S4096x16] S4096x272 1
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  dot_S4096x272_S272x1024_S4096x1024_1_0_0_1_n_n_wf : DotDims.WF S4096x272 S272x1024 S4096x1024 [1] [0] [0] [1] [] []
  dot_S4096x1024_S1024x256_S4096x256_1_0_0_1_n_n_wf : DotDims.WF S4096x1024 S1024x256 S4096x256 [1] [0] [0] [1] [] []

variable [Facts₀]

def dot_S4096x272_S272x1024_S4096x1024_1_0_0_1_n_n : DotDims S4096x272 S272x1024 S4096x1024 where
  lhsContracting := [1]
  rhsContracting := [0]
  lhsNonContracting := [0]
  rhsNonContracting := [1]
  lhsBatch := []
  rhsBatch := []
  wf := dot_S4096x272_S272x1024_S4096x1024_1_0_0_1_n_n_wf
def dot_S4096x1024_S1024x256_S4096x256_1_0_0_1_n_n : DotDims S4096x1024 S1024x256 S4096x256 where
  lhsContracting := [1]
  rhsContracting := [0]
  lhsNonContracting := [0]
  rhsNonContracting := [1]
  lhsBatch := []
  rhsBatch := []
  wf := dot_S4096x1024_S1024x256_S4096x256_1_0_0_1_n_n_wf

class Facts : Prop extends Facts₀ where

variable [Facts]
-- ==== Proof.LibRowOps.lean ====
/-
  Row-wise readings of the operations a row-parallel kernel body is made of, at an index written with the
  coordinate constructors: a plain `M × K` by `K × N` matrix product into a zero accumulator read at `(p, q)` is the
  sum over `k` of the left operand's row `p` times the right operand's column `q`; a sum (a maximum) along the
  second axis of an `[a, b]` array read at row `p` is the sum (the fold of `max`) of that row's entries.
-/
import Idealize.ShloMosaic.Lib.ValueIdx
import Idealize.ShloMosaic.PureOps.Ideal.Laws

namespace Cert.LibRowOps

open Idealize.ShloMosaic Idealize.ShloMosaic.ValueIdx

/-! ## A plain matrix product -/

section Plain
variable (M K N : ℕ)

theorem plain_lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_lhs_contr (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs_contr (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The product of an `[M, K]` by a `[K, N]` array accumulated into zero, at `(p, q)`: the sum over the contracted
    coordinate of row `p` of the left factor times column `q` of the right one. -/
theorem matmul_plain_zero_apply {φ₁ φ₂ : FTy} (l : FVec Ideal ⟨2, ![M, K]⟩ φ₁) (r : FVec Ideal ⟨2, ![K, N]⟩ φ₂)
    (p : Fin M) (q : Fin N) :
    FloatOps.matmul (DotDims.plain M K N) none l r (constant (F := Ideal) ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row M K N _ _
      | ⟨1, _⟩ => exact (plain_lhs_contr M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_contr M K N _ _).trans hk
      | ⟨1, _⟩ => exact plain_rhs_col M K N _ _)
  rw [el, er]

end Plain

/-! ## Reductions along the rows of a matrix -/

section Rows
variable {a b : ℕ} {φ : FTy}

/-- Over row `p` of the reduced vector, the source index with coordinate `k` put back on the dropped axis is `(p, k)`. -/
theorem lift_row (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

/-- A sum along the second axis, at row `p`: the sum of the row's entries. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- A maximum along the second axis, at row `p`: the fold of `max`, from the accumulator's value, over the row's entries. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (Finset.fold max (Ideal.ofBits φ acc) · Finset.univ) (funext fun k => congrArg src (lift_row h p k)))

end Rows

end Cert.LibRowOps
-- ==== Proof.Spec.lean ====
/-
  The function both programs compute, over the extended reals.

  The input rows are `[x | e]`: row `p` of `x` (256 columns) followed by row `p` of `e` (16 columns). A hidden unit is
  the rectified affine image of that row, `h p k = max (∑ l, [x | e] p l · W1 l k + b1 k) 0`; the pre-activation of an
  output is `o p q = ∑ k, h p k · W2 k q + b2 q`; and the output is the softplus of it in its stable form,
  `max o 0 + log1p (exp (−|o|))` with `|o| = max o (−o)`.

  Row `p` of the result depends on row `p` of `x` and of `e` only (`out_congr`): this is what lets a block of rows be
  computed from the same block of the inputs. The number of rows `M` is a parameter, so that one definition reads
  both a block and the whole array.
-/
import Idealize.ShloMosaic.Lib.ValueIdx
import Idealize.ShloMosaic.Lib.Pipeline.Value
import Idealize.ShloMosaic.PureOps.Ideal

noncomputable section

namespace Cert.Mlp

open Idealize.ShloMosaic Idealize.ShloMosaic.ValueIdx

/-- Entry `(p, l)` of the rows of `x` and `e` joined along the columns: `x` below column 256, `e` from there on. -/
def joined {M : ℕ} (x : (⟨2, ![M, 256]⟩ : Shape).Idx → EReal) (e : (⟨2, ![M, 16]⟩ : Shape).Idx → EReal)
    (p : Fin M) (l : Fin 272) : EReal :=
  if h : l.val < 256 then x (ix2 p ⟨l.val, h⟩) else e (ix2 p ⟨l.val - 256, by have := l.isLt; omega⟩)

/-- Two arrays of `M` rows joined along the columns, read at `(p, l)`: the entry falls in the first piece below column
    256 and in the second, 256 columns to the left, from there on. -/
theorem joined_of_concatenate {M : ℕ}
    (h : Shape.Concatenates [(⟨2, ![M, 256]⟩ : Shape), ⟨2, ![M, 16]⟩] ⟨2, ![M, 272]⟩ 1)
    (x : (⟨2, ![M, 256]⟩ : Shape).Idx → EReal) (e : (⟨2, ![M, 16]⟩ : Shape).Idx → EReal) (p : Fin M) (l : Fin 272) :
    concatenate ⟨2, ![M, 272]⟩ 1 [⟨⟨2, ![M, 256]⟩, x⟩, ⟨⟨2, ![M, 16]⟩, e⟩] h (ix2 p l) = joined x e p l := by
  unfold joined
  split
  · next hl =>
    exact concatenate_pair_apply_left 1 x e h (ix2 p l) rfl (ix2 p ⟨l.val, hl⟩) fun b => by
      match b with
      | ⟨0, _⟩ => rfl
      | ⟨1, _⟩ => rfl
  · next hl =>
    exact concatenate_pair_apply_right 1 x e h (ix2 p l) rfl rfl (ix2 p ⟨l.val - 256, by have := l.isLt; omega⟩)
      (fun b hb => by
        match b with
        | ⟨0, _⟩ => rfl
        | ⟨1, _⟩ => exact absurd rfl hb)
      (by show l.val - 256 + 256 = l.val; omega)

/-- Hidden unit `k` of row `p`: the joined row against column `k` of `W1`, the bias added, rectified. -/
def hidden {M : ℕ} (x : (⟨2, ![M, 256]⟩ : Shape).Idx → EReal) (e : (⟨2, ![M, 16]⟩ : Shape).Idx → EReal)
    (W1 : (⟨2, ![272, 1024]⟩ : Shape).Idx → EReal) (b1 : Fin 1024 → EReal) (p : Fin M) (k : Fin 1024) : EReal :=
  max ((∑ l : Fin 272, joined x e p l * W1 (ix2 l k)) + b1 k) 0

/-- The pre-activation of output `q` of row `p`: the hidden row against column `q` of `W2`, the bias added. -/
def preact {M : ℕ} (x : (⟨2, ![M, 256]⟩ : Shape).Idx → EReal) (e : (⟨2, ![M, 16]⟩ : Shape).Idx → EReal)
    (W1 : (⟨2, ![272, 1024]⟩ : Shape).Idx → EReal) (b1 : Fin 1024 → EReal)
    (W2 : (⟨2, ![1024, 256]⟩ : Shape).Idx → EReal) (b2 : Fin 256 → EReal) (p : Fin M) (q : Fin 256) : EReal :=
  (∑ k : Fin 1024, hidden x e W1 b1 p k * W2 (ix2 k q)) + b2 q

/-- The softplus in its stable form: `max o 0 + log1p (exp (−|o|))`, the absolute value as `max o (−o)`. -/
def softplus (o : EReal) : EReal := max o 0 + Ideal.log1p (Ideal.exp (-(max o (-o))))

/-- Output `(p, q)`: the softplus of the pre-activation. -/
def out {M : ℕ} (x : (⟨2, ![M, 256]⟩ : Shape).Idx → EReal) (e : (⟨2, ![M, 16]⟩ : Shape).Idx → EReal)
    (W1 : (⟨2, ![272, 1024]⟩ : Shape).Idx → EReal) (b1 : Fin 1024 → EReal)
    (W2 : (⟨2, ![1024, 256]⟩ : Shape).Idx → EReal) (b2 : Fin 256 → EReal) (p : Fin M) (q : Fin 256) : EReal :=
  softplus (preact x e W1 b1 W2 b2 p q)

/-- THE RESULT as one function of the six argument arrays, index by index: entry `i` is output `i 1` of row `i 0`, the
    biases read off their vectors. -/
def whole (a0 : (⟨2, ![4096, 256]⟩ : Shape).Idx → EReal) (a1 : (⟨2, ![4096, 16]⟩ : Shape).Idx → EReal)
    (a2 : (⟨2, ![272, 1024]⟩ : Shape).Idx → EReal) (a3 : (⟨1, ![1024]⟩ : Shape).Idx → EReal)
    (a4 : (⟨2, ![1024, 256]⟩ : Shape).Idx → EReal) (a5 : (⟨1, ![256]⟩ : Shape).Idx → EReal) :
    (⟨2, ![4096, 256]⟩ : Shape).Idx → EReal :=
  fun i => out a0 a1 a2 (fun k => a3 (ix1 k)) a4 (fun q => a5 (ix1 q)) (i 0) (i 1)

/-- Row `p` of the result is a function of row `p` of `x` and of `e`: two pairs of inputs, of any numbers of rows, that
    agree on a row give the same outputs on it. -/
theorem out_congr {M M' : ℕ} (x : (⟨2, ![M, 256]⟩ : Shape).Idx → EReal) (e : (⟨2, ![M, 16]⟩ : Shape).Idx → EReal)
    (x' : (⟨2, ![M', 256]⟩ : Shape).Idx → EReal) (e' : (⟨2, ![M', 16]⟩ : Shape).Idx → EReal)
    (W1 : (⟨2, ![272, 1024]⟩ : Shape).Idx → EReal) (b1 : Fin 1024 → EReal)
    (W2 : (⟨2, ![1024, 256]⟩ : Shape).Idx → EReal) (b2 : Fin 256 → EReal) (p : Fin M) (p' : Fin M') (q : Fin 256)
    (hx : ∀ l : Fin 256, x (ix2 p l) = x' (ix2 p' l)) (he : ∀ l : Fin 16, e (ix2 p l) = e' (ix2 p' l)) :
    out x e W1 b1 W2 b2 p q = out x' e' W1 b1 W2 b2 p' q := by
  have hj : ∀ l : Fin 272, joined x e p l = joined x' e' p' l := fun l => by
    unfold joined
    split
    · exact hx _
    · exact he _
  unfold out preact hidden
  simp only [hj]

/-- The same outputs when the biases are given as other functions with the same values. -/
theorem out_congr_bias {M : ℕ} (x : (⟨2, ![M, 256]⟩ : Shape).Idx → EReal) (e : (⟨2, ![M, 16]⟩ : Shape).Idx → EReal)
    (W1 : (⟨2, ![272, 1024]⟩ : Shape).Idx → EReal) (b1 b1' : Fin 1024 → EReal)
    (W2 : (⟨2, ![1024, 256]⟩ : Shape).Idx → EReal) (b2 b2' : Fin 256 → EReal) (p : Fin M) (q : Fin 256)
    (h1 : ∀ k, b1 k = b1' k) (h2 : ∀ q, b2 q = b2' q) :
    out x e W1 b1 W2 b2 p q = out x e W1 b1' W2 b2' p q := by
  rw [show b1 = b1' from funext h1, show b2 = b2' from funext h2]

/-- The form with the negation written as a difference from zero. -/
theorem softplus_of_zero_sub (o : EReal) :
    max o 0 + Ideal.log1p (Ideal.exp (0 - max o (-o))) = softplus o := by
  unfold softplus
  rw [zero_sub]

/-- The form that first takes `o − 0` and guards the result by the test `o − 0 ≠ o − 0`: on the extended reals nothing
    differs from itself, so the guarded branch is never taken, and `o − 0` is `o`. -/
theorem softplus_of_guarded (o : EReal) :
    Scalar.select (Ideal.cmp .une (o - 0) (o - 0)) (o + 0)
      (max o 0 + Ideal.log1p (Ideal.exp (-(max (o - 0) (-(o - 0)))))) = softplus o := by
  have hc : Ideal.cmp .une (o - 0) (o - 0) = 0#1 := by simp [Ideal.cmp]
  rw [hc]
  unfold softplus Scalar.select
  rw [if_neg (by decide), sub_zero]

end Cert.Mlp

end
-- ==== Proof.Payload.lean ====
/-
  What the body stores, read at an entry `(p, q)` of the 2048-row block: the specification's output on the loaded blocks.

  The two converted blocks joined along the columns are the joined rows of the specification; each matrix product into
  a zero accumulator is the sum over the contracted column; a bias row spread over the block reads the bias at the
  column; the format changes are the identity on the extended reals; and the last three lines are the softplus with its
  negation written as a difference from zero.
-/
import proofs.«119609_g9337258901604_cont_9to1_m_111_10_alg».proof.Proof.Gen.KernelIdeal.Skeleton
import proofs.«119609_g9337258901604_cont_9to1_m_111_10_alg».proof.Proof.LibRowOps
import proofs.«119609_g9337258901604_cont_9to1_m_111_10_alg».proof.Proof.Spec
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-- A row `[1, b]` spread over `[a, b]` reads, at `(p, c)`, the row's entry of column `c`. -/
theorem broadcastTo_row_apply {α : Type} {a b : ℕ} (h : (⟨2, ![1, b]⟩ : Shape).Broadcasts ⟨2, ![a, b]⟩)
    (v : (⟨2, ![1, b]⟩ : Shape).Idx → α) (p : Fin a) (c : Fin b) :
    broadcastTo ⟨2, ![a, b]⟩ v h (ix2 p c) = v (ix2 (0 : Fin 1) c) :=
  broadcastTo_apply v h (ix2 p c) (ix2 (0 : Fin 1) c) fun ax => by
    match ax with
    | ⟨0, _⟩ => rfl
    | ⟨1, _⟩ =>
      show c.val = if b = 1 then 0 else c.val
      split
      · have := c.isLt; omega
      · rfl

/-- The two blocks joined along the columns, at `(p, l)`: the specification's joined row. -/
theorem joined_apply (y0 : FVec Ideal S2048x256 .bf16) (y2 : FVec Ideal S2048x16 .bf16) (p : Fin 2048) (l : Fin 272) :
    concatenate S2048x272 1 [⟨S2048x256, y0⟩, ⟨S2048x16, y2⟩] concatenates_S2048x256_S2048x16_S2048x272_d1 (ix2 p l)
      = Cert.Mlp.joined y0 y2 p l :=
  Cert.Mlp.joined_of_concatenate _ y0 y2 p l

/-- The hidden block the body computes from its first four loads: the joined converted blocks against `W1`'s block, the
    bias row added, rectified. -/
def hiddenBlock (v0 : Vec Ideal S2048x256 .f32) (v2 : Vec Ideal S2048x16 .f32) (v5 : Vec Ideal S272x1024 .bf16)
    (v8 : Vec Ideal S1x1024 .f32) : FVec Ideal S2048x1024 .f32 :=
  have v1 : FVec Ideal S2048x256 .bf16 := truncf .bf16 v0 bitsLt_bf16_f32
  have v3 : FVec Ideal S2048x16 .bf16 := truncf .bf16 v2 bitsLt_bf16_f32
  have v4 : FVec Ideal S2048x272 .bf16 := concatenate S2048x272 1 [⟨S2048x256, v1⟩, ⟨S2048x16, v3⟩] concatenates_S2048x256_S2048x16_S2048x272_d1
  have v6 : FVec Ideal S272x1024 .bf16 := shapeCast S272x1024 v5 shapeCasts_S272x1024_S272x1024
  have cst : FVec Ideal S2048x1024 .f32 := constant S2048x1024 .f32 0x00000000#32
  have v7 : FVec Ideal S2048x1024 .f32 := matmul dot_S2048x272_S272x1024_S2048x1024_1_0_0_1_n_n none v4 v6 cst
  have v9 : FVec Ideal S1x1024 .f32 := shapeCast S1x1024 v8 shapeCasts_S1x1024_S1x1024
  have v10 : FVec Ideal S2048x1024 .f32 := broadcastTo S2048x1024 v9 broadcasts_S1x1024_S2048x1024
  have v11 : FVec Ideal S2048x1024 .f32 := addf v7 v10
  have cst_7 : Ideal .f32 := Scalar.ofBits .f32 0x00000000#32
  have v12 : FVec Ideal S2048x1024 .f32 := broadcast S2048x1024 cst_7
  maximumf v11 v12

/-- The block of pre-activations: the converted hidden block against `W2`'s block, the bias row added. -/
def preBlock (v0 : Vec Ideal S2048x256 .f32) (v2 : Vec Ideal S2048x16 .f32) (v5 : Vec Ideal S272x1024 .bf16)
    (v8 : Vec Ideal S1x1024 .f32) (v15 : Vec Ideal S1024x256 .bf16) (v18 : Vec Ideal S1x256 .f32) : FVec Ideal S2048x256 .f32 :=
  have v14 : FVec Ideal S2048x1024 .bf16 := truncf .bf16 (hiddenBlock v0 v2 v5 v8) bitsLt_bf16_f32
  have v16 : FVec Ideal S1024x256 .bf16 := shapeCast S1024x256 v15 shapeCasts_S1024x256_S1024x256
  have cst_10 : FVec Ideal S2048x256 .f32 := constant S2048x256 .f32 0x00000000#32
  have v17 : FVec Ideal S2048x256 .f32 := matmul dot_S2048x1024_S1024x256_S2048x256_1_0_0_1_n_n none v14 v16 cst_10
  have v19 : FVec Ideal S1x256 .f32 := shapeCast S1x256 v18 shapeCasts_S1x256_S1x256
  have v20 : FVec Ideal S2048x256 .f32 := broadcastTo S2048x256 v19 broadcasts_S1x256_S2048x256
  addf v17 v20

/-- The stored value is the stable softplus of the pre-activation block, the negation a difference from zero. -/
theorem pay_eq (v0 : Vec Ideal S2048x256 .f32) (v2 : Vec Ideal S2048x16 .f32) (v5 : Vec Ideal S272x1024 .bf16)
    (v8 : Vec Ideal S1x1024 .f32) (v15 : Vec Ideal S1024x256 .bf16) (v18 : Vec Ideal S1x256 .f32) :
    k0_pay1 (F := Ideal) v0 v2 v5 v8 v15 v18
      = addf (maximumf (preBlock v0 v2 v5 v8 v15 v18) (broadcast S2048x256 (Scalar.ofBits .f32 0x00000000#32)))
          (log1p (exp (subf (broadcast S2048x256 (Scalar.ofBits .f32 0x00000000#32)) (absf (preBlock v0 v2 v5 v8 v15 v18))))) := rfl

/-- The hidden block at `(p, k)` is the specification's hidden unit `k` of row `p`. -/
theorem hiddenBlock_apply (v0 : Vec Ideal S2048x256 .f32) (v2 : Vec Ideal S2048x16 .f32) (v5 : Vec Ideal S272x1024 .bf16)
    (v8 : Vec Ideal S1x1024 .f32) (p : Fin 2048) (k : Fin 1024) :
    hiddenBlock v0 v2 v5 v8 (ix2 p k) = Cert.Mlp.hidden v0 v2 v5 (fun k => v8 (ix2 (0 : Fin 1) k)) p k := by
  unfold hiddenBlock Cert.Mlp.hidden
  refine congrArg₂ (max : EReal → EReal → EReal) (congrArg₂ (fun a b : EReal => a + b) ?_ ?_) Ideal.ofBits_zero_f32
  · refine (LibRowOps.matmul_plain_zero_apply 2048 272 1024 _ _ p k).trans (Finset.sum_congr rfl fun l _ => ?_)
    rw [joined_apply, shapeCast_self]
    rfl
  · rw [shapeCast_self]
    exact broadcastTo_row_apply _ v8 p k

/-- The pre-activation block at `(p, q)` is the specification's pre-activation of output `q` of row `p`. -/
theorem preBlock_apply (v0 : Vec Ideal S2048x256 .f32) (v2 : Vec Ideal S2048x16 .f32) (v5 : Vec Ideal S272x1024 .bf16)
    (v8 : Vec Ideal S1x1024 .f32) (v15 : Vec Ideal S1024x256 .bf16) (v18 : Vec Ideal S1x256 .f32) (p : Fin 2048) (q : Fin 256) :
    preBlock v0 v2 v5 v8 v15 v18 (ix2 p q)
      = Cert.Mlp.preact v0 v2 v5 (fun k => v8 (ix2 (0 : Fin 1) k)) v15 (fun q => v18 (ix2 (0 : Fin 1) q)) p q := by
  unfold preBlock Cert.Mlp.preact
  refine congrArg₂ (fun a b : EReal => a + b) ?_ ?_
  · refine (LibRowOps.matmul_plain_zero_apply 2048 1024 256 _ _ p q).trans (Finset.sum_congr rfl fun k _ => ?_)
    rw [shapeCast_self]
    exact congrArg (· * v15 (ix2 k q)) (hiddenBlock_apply v0 v2 v5 v8 p k)
  · rw [shapeCast_self]
    exact broadcastTo_row_apply _ v18 p q

/-- THE STORED VALUE AT `(p, q)`: the specification's output on the loaded blocks, the biases read off their one-row
    blocks. -/
theorem pay_apply (v0 : Vec Ideal S2048x256 .f32) (v2 : Vec Ideal S2048x16 .f32) (v5 : Vec Ideal S272x1024 .bf16)
    (v8 : Vec Ideal S1x1024 .f32) (v15 : Vec Ideal S1024x256 .bf16) (v18 : Vec Ideal S1x256 .f32) (p : Fin 2048) (q : Fin 256) :
    k0_pay1 (F := Ideal) v0 v2 v5 v8 v15 v18 (ix2 p q)
      = Cert.Mlp.out v0 v2 v5 (fun k => v8 (ix2 (0 : Fin 1) k)) v15 (fun q => v18 (ix2 (0 : Fin 1) q)) p q := by
  rw [pay_eq]
  show max (preBlock v0 v2 v5 v8 v15 v18 (ix2 p q)) (Ideal.ofBits .f32 0x00000000#32)
      + Ideal.log1p (Ideal.exp (Ideal.ofBits .f32 0x00000000#32
          - max (preBlock v0 v2 v5 v8 v15 v18 (ix2 p q)) (-(preBlock v0 v2 v5 v8 v15 v18 (ix2 p q))))) = _
  rw [preBlock_apply, Ideal.ofBits_zero_f32]
  exact Cert.Mlp.softplus_of_zero_sub _

/-- THE STORED VALUE AGAINST THE WHOLE ARRAYS. If row `p` of the two input blocks is row `r` of the arrays `a0`, `a1`, the
    weight blocks are the weight arrays, and the one-row bias blocks hold the bias vectors, then what the body stores at
    `(p, q)` is entry `(r, q)` of the result as a function of the six arrays. -/
theorem point_of (x0 : Vec Ideal S2048x256 .f32) (x1 : Vec Ideal S2048x16 .f32) (x2 : Vec Ideal S272x1024 .bf16)
    (x3 : Vec Ideal S1x1024 .f32) (x4 : Vec Ideal S1024x256 .bf16) (x5 : Vec Ideal S1x256 .f32)
    (a0 : S4096x256.Idx → EReal) (a1 : S4096x16.Idx → EReal) (a2 : S272x1024.Idx → EReal) (a3 : S1024.Idx → EReal)
    (a4 : S1024x256.Idx → EReal) (a5 : S256.Idx → EReal) (p : Fin 2048) (q : Fin 256) (r : Fin 4096)
    (h0 : ∀ l : Fin 256, x0 (ix2 p l) = a0 (ix2 r l)) (h1 : ∀ l : Fin 16, x1 (ix2 p l) = a1 (ix2 r l))
    (h2 : x2 = a2) (h3 : ∀ k : Fin 1024, x3 (ix2 (0 : Fin 1) k) = a3 (ix1 k))
    (h4 : x4 = a4) (h5 : ∀ s : Fin 256, x5 (ix2 (0 : Fin 1) s) = a5 (ix1 s)) :
    k0_pay1 (F := Ideal) x0 x1 x2 x3 x4 x5 (ix2 p q) = Cert.Mlp.whole a0 a1 a2 a3 a4 a5 (ix2 r q) := by
  subst h2 h4
  rw [pay_apply]
  show Cert.Mlp.out x0 x1 x2 (fun k => x3 (ix2 (0 : Fin 1) k)) x4 (fun s => x5 (ix2 (0 : Fin 1) s)) p q
      = Cert.Mlp.out a0 a1 x2 (fun k => a3 (ix1 k)) x4 (fun s => a5 (ix1 s)) r q
  rw [Cert.Mlp.out_congr_bias x0 x1 x2 _ (fun k => a3 (ix1 k)) x4 _ (fun s => a5 (ix1 s)) p q h3 h5]
  exact Cert.Mlp.out_congr x0 x1 a0 a1 x2 _ x4 _ p r q h0 h1

end Cert.KernelIdeal.Body

end
-- ==== Proof.KernelArray.lean ====
/-
  From the grid's two points to the whole result array of the idealized kernel.

  Point `t` loads rows `2048 t … 2048 t + 2047` of `x` and of `e`, the whole of the two converted weight arrays and the two
  biases laid as one-row arrays, and writes back rows `2048 t … 2048 t + 2047` of the result. Since a row of the result
  depends on the same row of `x` and `e` only, what point `t` writes back is block `t` of ONE function of the six
  argument arrays; the two blocks tile the array (row `r` lies in block `r / 2048`), so the array ends holding that
  function.
-/
import proofs.«119609_g9337258901604_cont_9to1_m_111_10_alg».proof.Proof.Gen.KernelIdeal.Value
import proofs.«119609_g9337258901604_cont_9to1_m_111_10_alg».proof.Proof.Payload
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.KernelIdeal.Value

variable (m : (ℓ : Loc nD τ sig) → Buf (Elt Ideal) ℓ) (ρ : Dev nD → PrngReg)

theorem hz : (![0, 0] : Fin 2 → Nat) = fun _ => 0 := funext fun a => by fin_cases a <;> rfl

/-! ## The six argument arrays, and the result as a function of them -/

abbrev xArr (c : Dev nD) : S4096x256.Idx → EReal := (m ((c : Thread nD τ).loc main_arg0))
abbrev eArr (c : Dev nD) : S4096x16.Idx → EReal := (m ((c : Thread nD τ).loc main_arg1))
abbrev w1Arr (c : Dev nD) : S272x1024.Idx → EReal := (m ((c : Thread nD τ).loc main_arg2))
abbrev b1Arr (c : Dev nD) : S1024.Idx → EReal := (m ((c : Thread nD τ).loc main_arg3))
abbrev w2Arr (c : Dev nD) : S1024x256.Idx → EReal := (m ((c : Thread nD τ).loc main_arg4))
abbrev b2Arr (c : Dev nD) : S256.Idx → EReal := (m ((c : Thread nD τ).loc main_arg5))

/-- The result array: the softplus of the two-layer map of the joined rows, entry by entry. -/
abbrev result (c : Dev nD) : S4096x256.Idx → EReal :=
  Cert.Mlp.whole (xArr m c) (eArr m c) (w1Arr m c) (b1Arr m c) (w2Arr m c) (b2Arr m c)

/-! ## The arrays written before the region: the converted weights and the biases as one-row arrays -/

/-- The converted first weight array is the weight array: a format change is the identity on the extended reals. -/
theorem V_w1 (c : Dev nD) : (V m c main_v2 : S272x1024.Idx → EReal) = w1Arr m c := by
  dsimp only [Gen.V, Gen.hostOps0]; after_results; rfl

/-- The converted second weight array is the weight array. -/
theorem V_w2 (c : Dev nD) : (V m c main_v3 : S1024x256.Idx → EReal) = w2Arr m c := by
  dsimp only [Gen.V, Gen.hostOps0]; after_results; rfl

/-- The first bias laid as a `[1, 1024]` array holds, at `(0, k)`, the bias at `k`. -/
theorem V_b1 (c : Dev nD) (k : Fin 1024) : (V m c main_v0 : S1x1024.Idx → EReal) (ix2 (0 : Fin 1) k) = b1Arr m c (ix1 k) := by
  have e : (V m c main_v0 : S1x1024.Idx → EReal) = shapeCast S1x1024 (b1Arr m c) shapeCasts_S1024_S1x1024 := by
    dsimp only [Gen.V, Gen.hostOps0]; after_results; rfl
  rw [e]
  refine shapeCast_apply _ _ (ix2 (0 : Fin 1) k) (ix1 k) ?_
  rw [Shape.rowMajor_val_one, Shape.rowMajor_val_two]
  show k.val = 0 * 1024 + k.val
  omega

/-- The second bias laid as a `[1, 256]` array holds, at `(0, s)`, the bias at `s`. -/
theorem V_b2 (c : Dev nD) (s : Fin 256) : (V m c main_v1 : S1x256.Idx → EReal) (ix2 (0 : Fin 1) s) = b2Arr m c (ix1 s) := by
  have e : (V m c main_v1 : S1x256.Idx → EReal) = shapeCast S1x256 (b2Arr m c) shapeCasts_S256_S1x256 := by
    dsimp only [Gen.V, Gen.hostOps0]; after_results; rfl
  rw [e]
  refine shapeCast_apply _ _ (ix2 (0 : Fin 1) s) (ix1 s) ?_
  rw [Shape.rowMajor_val_one, Shape.rowMajor_val_two]
  show s.val = 0 * 256 + s.val
  omega

/-! ## The index maps over the grid -/

/-- Decided over the two points: the two input windows move with the output window along the rows, every other block
    index is zero, and the output's row block is 0 or 1. -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (1 : Fin 2) = 0 ∧ win0_6.index t (0 : Fin 2) ≤ 1 :=
  (by decide +kernel : ∀ t : Fin grid0.N, _)

/-- Each of the two row blocks is some point's. -/
theorem idx_onto : ∀ q0 : Fin 2, ∃ t : Fin cfg0.N, win0_6.index t = ![q0.val, 0] :=
  (by decide +kernel : ∀ q0 : Fin 2, ∃ t : Fin grid0.N, win0_6.index t = ![q0.val, 0])

/-! ## The input blocks at a point, read off the arrays -/

/-- Entry `y` of `x`'s block at point `t` is `x` at the entry with the same column, `2048` times the block's row index further
    down. -/
theorem iblk0_apply (c : Dev nD) (t : Fin cfg0.N) (y : S2048x256.Idx) (i : S4096x256.Idx)
    (h0 : (i 0).val = win0_6.index t (0 : Fin 2) * 2048 + (y 0).val) (h1 : (i 1).val = (y 1).val) :
    (iblk m c 0 t : Vec Ideal S2048x256 .f32) y = xArr m c i := by
  obtain ⟨e00, e01, -⟩ := idx_facts t
  unfold iblk
  rw [View.read_apply]
  refine (congrFun (V_main_arg0 m c) _).trans (congrArg (xArr m c) ?_)
  funext a
  apply Fin.ext
  match a with
  | ⟨0, _⟩ => show win0_0.index t (0 : Fin 2) * 2048 + 1 * (y 0).val = (i 0).val; rw [h0, e00]; omega
  | ⟨1, _⟩ => show win0_0.index t (1 : Fin 2) * 256 + 1 * (y 1).val = (i 1).val; rw [h1, e01]; omega

/-- The same for `e`'s block. -/
theorem iblk1_apply (c : Dev nD) (t : Fin cfg0.N) (y : S2048x16.Idx) (i : S4096x16.Idx)
    (h0 : (i 0).val = win0_6.index t (0 : Fin 2) * 2048 + (y 0).val) (h1 : (i 1).val = (y 1).val) :
    (iblk m c 1 t : Vec Ideal S2048x16 .f32) y = eArr m c i := by
  obtain ⟨-, -, e10, e11, -⟩ := idx_facts t
  unfold iblk
  rw [View.read_apply]
  refine (congrFun (V_main_arg1 m c) _).trans (congrArg (eArr m c) ?_)
  funext a
  apply Fin.ext
  match a with
  | ⟨0, _⟩ => show win0_1.index t (0 : Fin 2) * 2048 + 1 * (y 0).val = (i 0).val; rw [h0, e10]; omega
  | ⟨1, _⟩ => show win0_1.index t (1 : Fin 2) * 16 + 1 * (y 1).val = (i 1).val; rw [h1, e11]; omega

/-- The first weight window's one block is the whole weight array, at every point. -/
theorem iblk2_eq (c : Dev nD) (t : Fin cfg0.N) : (iblk m c 2 t : Vec Ideal S272x1024 .bf16) = w1Arr m c := by
  obtain ⟨-, -, -, -, e0, e1, -⟩ := idx_facts t
  funext y
  unfold iblk
  rw [View.read_apply]
  refine (congrArg (V m c main_v2 : S272x1024.Idx → EReal) ?_).trans (congrFun (V_w1 m c) y)
  funext a
  apply Fin.ext
  match a with
  | ⟨0, _⟩ => show win0_2.index t (0 : Fin 2) * 272 + 1 * (y 0).val = (y 0).val; rw [e0]; omega
  | ⟨1, _⟩ => show win0_2.index t (1 : Fin 2) * 1024 + 1 * (y 1).val = (y 1).val; rw [e1]; omega

/-- The second weight window's one block is the whole weight array, at every point. -/
theorem iblk4_eq (c : Dev nD) (t : Fin cfg0.N) : (iblk m c 4 t : Vec Ideal S1024x256 .bf16) = w2Arr m c := by
  obtain ⟨-, -, -, -, -, -, -, -, e0, e1, -⟩ := idx_facts t
  funext y
  unfold iblk
  rw [View.read_apply]
  refine (congrArg (V m c main_v3 : S1024x256.Idx → EReal) ?_).trans (congrFun (V_w2 m c) y)
  funext a
  apply Fin.ext
  match a with
  | ⟨0, _⟩ => show win0_4.index t (0 : Fin 2) * 1024 + 1 * (y 0).val = (y 0).val; rw [e0]; omega
  | ⟨1, _⟩ => show win0_4.index t (1 : Fin 2) * 256 + 1 * (y 1).val = (y 1).val; rw [e1]; omega

/-- The first bias window's one block holds, at `(0, k)`, the bias at `k`. -/
theorem iblk3_apply (c : Dev nD) (t : Fin cfg0.N) (k : Fin 1024) :
    (iblk m c 3 t : Vec Ideal S1x1024 .f32) (ix2 (0 : Fin 1) k) = b1Arr m c (ix1 k) := by
  obtain ⟨-, -, -, -, -, -, e0, e1, -⟩ := idx_facts t
  unfold iblk
  rw [View.read_apply]
  refine (congrArg (V m c main_v0 : S1x1024.Idx → EReal) ?_).trans (V_b1 m c k)
  funext a
  apply Fin.ext
  match a with
  | ⟨0, _⟩ => show win0_3.index t (0 : Fin 2) * 1 + 1 * 0 = 0; rw [e0]
  | ⟨1, _⟩ => show win0_3.index t (1 : Fin 2) * 1024 + 1 * k.val = k.val; rw [e1]; omega

/-- The second bias window's one block holds, at `(0, s)`, the bias at `s`. -/
theorem iblk5_apply (c : Dev nD) (t : Fin cfg0.N) (s : Fin 256) :
    (iblk m c 5 t : Vec Ideal S1x256 .f32) (ix2 (0 : Fin 1) s) = b2Arr m c (ix1 s) := by
  obtain ⟨-, -, -, -, -, -, -, -, -, -, e0, e1, -⟩ := idx_facts t
  unfold iblk
  rw [View.read_apply]
  refine (congrArg (V m c main_v1 : S1x256.Idx → EReal) ?_).trans (V_b2 m c s)
  funext a
  apply Fin.ext
  match a with
  | ⟨0, _⟩ => show win0_5.index t (0 : Fin 2) * 1 + 1 * 0 = 0; rw [e0]
  | ⟨1, _⟩ => show win0_5.index t (1 : Fin 2) * 256 + 1 * s.val = s.val; rw [e1]; omega

/-! ## What a point writes back, the cover, the array -/

/-- The body's stored value at entry `y` of the block, at point `t`, is the result at the entry `i` of the array with the
    same column, `2048` times the block's row index further down. -/
theorem point_eq (c : Dev nD) (t : Fin cfg0.N) (y : S2048x256.Idx) (i : S4096x256.Idx)
    (h0 : (i 0).val = win0_6.index t (0 : Fin 2) * 2048 + (y 0).val) (h1 : (i 1).val = (y 1).val) :
    k0_pay1 (F := Ideal) (iblk m c 0 t) (iblk m c 1 t) (iblk m c 2 t) (iblk m c 3 t) (iblk m c 4 t) (iblk m c 5 t) y
      = result m c i := by
  obtain ⟨p, q, rfl⟩ : ∃ (p : Fin 2048) (q : Fin 256), y = ix2 p q := ⟨y 0, y 1, eq_ix2 y⟩
  obtain ⟨r, s, rfl⟩ : ∃ (r : Fin 4096) (s : Fin 256), i = ix2 r s := ⟨i 0, i 1, eq_ix2 i⟩
  obtain rfl : s = q := Fin.ext h1
  exact Body.point_of (iblk m c 0 t) (iblk m c 1 t) (iblk m c 2 t) (iblk m c 3 t) (iblk m c 4 t) (iblk m c 5 t)
    (xArr m c) (eArr m c) (w1Arr m c) (b1Arr m c) (w2Arr m c) (b2Arr m c) p s r
    (fun l => iblk0_apply m c t (ix2 p l) (ix2 r l) h0 rfl)
    (fun l => iblk1_apply m c t (ix2 p l) (ix2 r l) h0 rfl)
    (iblk2_eq m c t) (fun k => iblk3_apply m c t k) (iblk4_eq m c t) (fun s' => iblk5_apply m c t s')

/-- WHAT POINT `t` WRITES BACK is block `t` of the result. -/
theorem flushed_eq (c : Dev nD) (t : Fin cfg0.N) :
    (dats m 0 c).flushed 6 t = ((cfg0.win 6).blk t).view.read (Elt Ideal) (result m c) := by
  obtain ⟨-, -, -, -, -, -, -, -, -, -, -, -, e61, -⟩ := idx_facts t
  rw [Value.flushed6]
  unfold out0_6
  rw [View.canon_unit_zero hz]
  simp only [View.ld_unit_zero (S := S2048x256) hz, View.ld_unit_zero (S := S2048x16) hz, View.ld_unit_zero (S := S272x1024) hz,
    View.ld_unit_zero (S := S1x1024) hz, View.ld_unit_zero (S := S1024x256) hz, View.ld_unit_zero (S := S1x256) hz]
  funext j
  show k0_pay1 (F := Ideal) (iblk m c 0 t) (iblk m c 1 t) (iblk m c 2 t) (iblk m c 3 t) (iblk m c 4 t) (iblk m c 5 t) j
      = result m c (((cfg0.win 6).blk t).view.emb j)
  refine point_eq m c t j _ ?_ ?_
  · show win0_6.index t (0 : Fin 2) * 2048 + 1 * (j 0).val = win0_6.index t (0 : Fin 2) * 2048 + (j 0).val
    omega
  · show win0_6.index t (1 : Fin 2) * 256 + 1 * (j 1).val = (j 1).val
    rw [e61]; omega

/-- An index of the array is in point `t`'s block iff each coordinate is in the block's range on its axis. -/
theorem mem_blk (t : Fin cfg0.N) (i : S4096x256.Idx) :
    i ∈ ((cfg0.win 6).blk t).view.set ↔ ∀ a : Fin 2, win0_6.index t a * S2048x256.size a ≤ (i a).val ∧ (i a).val < win0_6.index t a * S2048x256.size a + S2048x256.size a := by
  show i ∈ ((View.whole main_v4).slice (win0_6.rect t)).set ↔ _
  rw [View.set_slice_whole, Rect.mem_set_unit]
  exact Iff.rfl

/-- THE COVER: row `r` of the array lies in the block of the point whose row block is `r / 2048`. -/
theorem cover (i : S4096x256.Idx) : ∃ t : Fin cfg0.N, (cfg0.win 6).flush t = true ∧ i ∈ ((cfg0.win 6).blk t).view.set := by
  have hi0 : (i 0).val < 4096 := (i 0).isLt
  have hi1 : (i 1).val < 256 := (i 1).isLt
  obtain ⟨t, ht⟩ := idx_onto ⟨(i 0).val / 2048, by omega⟩
  have q0 : win0_6.index t (0 : Fin 2) = (i 0).val / 2048 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 2048 ≤ (i 0).val ∧ (i 0).val < win0_6.index t (0 : Fin 2) * 2048 + 2048; omega
  | ⟨1, _⟩ => show win0_6.index t (1 : Fin 2) * 256 ≤ (i 1).val ∧ (i 1).val < win0_6.index t (1 : Fin 2) * 256 + 256; omega

/-- THE ARRAY after the run is the result. -/
theorem final (c : Dev nD) : (dats m 0 c).arrAt 6 cfg0.N = result m c :=
  (dats m 0 c).arrAt_eq_of_cover 6 (result m c) (fun t _ => flushed_eq m c t) cover

/-- The run, read: the result array at the softplus of the two-layer map of the arguments, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final m c), (h c).2⟩) (Value.run_blocks m ρ)

end Cert.KernelIdeal.Whole

end
-- ==== Proof.RefArray.lean ====
/-
  The reference's result array is the same function of the six argument arrays.

  Read one operation at a time: the joined input at `(r, l)` is the joined row of the specification; a `dot_general` over
  the one contracted axis is the sum over that coordinate; a bias spread first into a one-row array and then over the
  rows reads the bias at the column; `relu` is the maximum with zero; and `softplus` is written as
  `logaddexp (o, 0)`, which takes `o − 0`, guards the result by the test that this difference differs from itself, and
  otherwise adds `log1p (exp (−|o − 0|))` to `max o 0`. On the extended reals the guard never fires.
-/
import proofs.«119609_g9337258901604_cont_9to1_m_111_10_alg».proof.Proof.Gen.ReferenceIdeal.Read
import proofs.«119609_g9337258901604_cont_9to1_m_111_10_alg».proof.Proof.Spec
import Idealize.ShloMosaic.Lib.Pipeline.Value
import Idealize.ShloMosaic.Lib.ValueIdx
import Idealize.ShloMosaic.PureOps.Ideal.Laws

noncomputable section

namespace Cert.ReferenceIdeal.Whole

open Cert.ReferenceIdeal Cert.ReferenceIdeal.Gen Cert.ReferenceIdeal.Read Idealize.ShloMosaic Idealize.ShloMosaic.ValueIdx

variable (x0 : S4096x256.Idx → EReal) (x1 : S4096x16.Idx → EReal) (x2 : S272x1024.Idx → EReal) (x3 : S1024.Idx → EReal)
  (x4 : S1024x256.Idx → EReal) (x5 : S256.Idx → EReal)

/-! ## The index functions of the generated stages, at an index given by its coordinates -/

theorem lidx1 (r : Fin 4096) (k : Fin 1024) (l : Fin 272) : lidx_main_v1 (ix2 r k) l = ix2 r l :=
  funext fun a => Fin.ext (by match a with | ⟨0, _⟩ => rfl | ⟨1, _⟩ => rfl)
theorem ridx1 (r : Fin 4096) (k : Fin 1024) (l : Fin 272) : ridx_main_v1 (ix2 r k) l = ix2 l k :=
  funext fun a => Fin.ext (by match a with | ⟨0, _⟩ => rfl | ⟨1, _⟩ => rfl)
theorem bidx1 (r : Fin 4096) (k : Fin 1024) : idx_main_v2 (idx_main_v3 (ix2 r k)) = ix1 k :=
  funext fun a => Fin.ext (by match a with | ⟨0, _⟩ => rfl)
theorem lidx2 (r : Fin 4096) (s : Fin 256) (k : Fin 1024) : lidx_main_v6 (ix2 r s) k = ix2 r k :=
  funext fun a => Fin.ext (by match a with | ⟨0, _⟩ => rfl | ⟨1, _⟩ => rfl)
theorem ridx2 (r : Fin 4096) (s : Fin 256) (k : Fin 1024) : ridx_main_v6 (ix2 r s) k = ix2 k s :=
  funext fun a => Fin.ext (by match a with | ⟨0, _⟩ => rfl | ⟨1, _⟩ => rfl)
theorem bidx2 (r : Fin 4096) (s : Fin 256) : idx_main_v7 (idx_main_v8 (ix2 r s)) = ix1 s :=
  funext fun a => Fin.ext (by match a with | ⟨0, _⟩ => rfl)

/-! ## The stages -/

/-- The joined input at `(r, l)`. -/
theorem joined_apply (r : Fin 4096) (l : Fin 272) :
    val_main_v0 (F := Ideal) x0 x1 (ix2 r l) = Cert.Mlp.joined x0 x1 r l := by
  unfold val_main_v0
  exact Cert.Mlp.joined_of_concatenate _ x0 x1 r l

/-- The rectified first layer at `(r, k)` is the specification's hidden unit. -/
theorem hidden_apply (r : Fin 4096) (k : Fin 1024) :
    val_main_v5 (F := Ideal) x0 x1 x2 x3 (ix2 r k) = Cert.Mlp.hidden x0 x1 x2 (fun k => x3 (ix1 k)) r k := by
  rw [val_main_v5_apply, val_main_v4_apply, val_main_v1_apply, val_main_v3_apply, val_main_v2_apply,
    val_main_call0_v0_apply, val_main_call0_cst_apply]
  simp only [lidx1, ridx1, bidx1, joined_apply]
  show max ((∑ l : Fin 272, Cert.Mlp.joined x0 x1 r l * x2 (ix2 l k)) + x3 (ix1 k)) (Ideal.ofBits .f32 0x00000000#32) = _
  rw [Ideal.ofBits_zero_f32]
  rfl

/-- The second layer at `(r, s)` is the specification's pre-activation. -/
theorem preact_apply (r : Fin 4096) (s : Fin 256) :
    val_main_v9 (F := Ideal) x0 x1 x2 x3 x4 x5 (ix2 r s)
      = Cert.Mlp.preact x0 x1 x2 (fun k => x3 (ix1 k)) x4 (fun q => x5 (ix1 q)) r s := by
  rw [val_main_v9_apply, val_main_v6_apply, val_main_v8_apply, val_main_v7_apply]
  simp only [lidx2, ridx2, bidx2, hidden_apply]
  rfl

/-- THE REFERENCE'S RESULT is the result function of the specification. -/
theorem ref_eq : val_main_v10 (F := Ideal) x0 x1 x2 x3 x4 x5 = Cert.Mlp.whole x0 x1 x2 x3 x4 x5 := by
  funext i
  obtain ⟨r, s, rfl⟩ : ∃ (r : Fin 4096) (s : Fin 256), i = ix2 r s := ⟨i 0, i 1, eq_ix2 i⟩
  rw [val_main_v10_apply, val_main_call1_v4_apply, val_main_call1_v6_apply, val_main_call1_v11_apply,
    val_main_call1_v1_apply, val_main_call1_v10_apply, val_main_call1_v9_apply, val_main_call1_v8_apply,
    val_main_call1_v7_apply, val_main_call1_v3_apply, val_main_call1_v0_apply, val_main_call1_v2_apply,
    val_main_call1_v5_apply, val_main_call1_cst_apply, preact_apply]
  show Scalar.select (Ideal.cmp .une (_ - Ideal.ofBits .f32 0x00000000#32) (_ - Ideal.ofBits .f32 0x00000000#32))
      (_ + Ideal.ofBits .f32 0x00000000#32)
      (max _ (Ideal.ofBits .f32 0x00000000#32)
        + Ideal.log1p (Ideal.exp (-(max (_ - Ideal.ofBits .f32 0x00000000#32) (-(_ - Ideal.ofBits .f32 0x00000000#32)))))) = _
  rw [Ideal.ofBits_zero_f32]
  exact Cert.Mlp.softplus_of_guarded _

end Cert.ReferenceIdeal.Whole

end
-- ==== Proof.lean ====
/-
  A two-layer map with a softplus on top, computed in row blocks, against the same map computed whole.

  Both programs take `x : [4096, 256]`, `e : [4096, 16]`, weights `W1 : [272, 1024]`, `W2 : [1024, 256]` and biases `b1`, `b2`,
  join `x` and `e` along the columns, and return
      softplus (max ([x | e] · W1 + b1) 0 · W2 + b2),      softplus o = max o 0 + log1p (exp (−|o|)).
  The kernel does it for 2048 rows at a time, on weights converted to a narrower format beforehand and with the joined
  rows and the hidden block converted too; on the extended reals a format change is the identity, and a product of
  matrices into a zero accumulator is the plain sum over the contracted coordinate, in the kernel and in the reference
  alike, so no law beyond reading the two texts index by index is needed, and nothing here depends on the inputs being
  finite. The two texts differ in three spellings: the kernel writes the negation as `0 − |o|`; the reference's softplus
  is `logaddexp (o, 0)`, which works on `o − 0` and guards its result by the test that this difference differs from
  itself, a test no extended real passes.

  `Spec.lean` states the function; `Payload.lean` reads the body's stored block at an entry; `KernelArray.lean` goes from
  the two row blocks to the whole array (a row of the result depends on the same row of `x` and `e` only, and the blocks
  tile the array); `RefArray.lean` reads the reference's operations one at a time. The kernel's idealization rewrote
  nothing, so there is nothing to preserve.
-/
import proofs.«119609_g9337258901604_cont_9to1_m_111_10_alg».proof.Defs
import proofs.«119609_g9337258901604_cont_9to1_m_111_10_alg».proof.Proof.Gen.Kernel
import proofs.«119609_g9337258901604_cont_9to1_m_111_10_alg».proof.Proof.Gen.Kernel.Skeleton
import proofs.«119609_g9337258901604_cont_9to1_m_111_10_alg».proof.Proof.Gen.Kernel.Launch
import proofs.«119609_g9337258901604_cont_9to1_m_111_10_alg».proof.Proof.Gen.Kernel.Points
import proofs.«119609_g9337258901604_cont_9to1_m_111_10_alg».proof.Proof.Gen.Kernel.Frame
import proofs.«119609_g9337258901604_cont_9to1_m_111_10_alg».proof.Proof.Gen.KernelIdeal
import proofs.«119609_g9337258901604_cont_9to1_m_111_10_alg».proof.Proof.Gen.KernelIdeal.Skeleton
import proofs.«119609_g9337258901604_cont_9to1_m_111_10_alg».proof.Proof.Gen.KernelIdeal.Launch
import proofs.«119609_g9337258901604_cont_9to1_m_111_10_alg».proof.Proof.Gen.KernelIdeal.Points
import proofs.«119609_g9337258901604_cont_9to1_m_111_10_alg».proof.Proof.Gen.KernelIdeal.Frame
import proofs.«119609_g9337258901604_cont_9to1_m_111_10_alg».proof.Proof.Gen.ReferenceIdeal
import proofs.«119609_g9337258901604_cont_9to1_m_111_10_alg».proof.Proof.Gen.Pre_finite_inputs
import proofs.«119609_g9337258901604_cont_9to1_m_111_10_alg».proof.Proof.Gen.KernelIdeal.Value
import proofs.«119609_g9337258901604_cont_9to1_m_111_10_alg».proof.Proof.Gen.ReferenceIdeal.Run
import proofs.«119609_g9337258901604_cont_9to1_m_111_10_alg».proof.Proof.Gen.ReferenceIdeal.Read
import proofs.«119609_g9337258901604_cont_9to1_m_111_10_alg».proof.Proof.KernelArray
import proofs.«119609_g9337258901604_cont_9to1_m_111_10_alg».proof.Proof.RefArray
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments alone: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the six arguments the kernel's result array ends at the result function of its
    arguments and the reference's at the same function of its own: one array. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.Read.val_main_v10_eq, Cert.ReferenceIdeal.Whole.ref_eq, h0, h1, h2, h3, h4, h5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
